-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 29
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S600000, .i1⟩
  | .hbm, ⟨11, _⟩ => ⟨S600000, .f32⟩
  | .hbm, ⟨12, _⟩ => ⟨S600000x1, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S600000, .i1⟩
  | .hbm, ⟨11, _⟩ => ⟨S600000, .f32⟩
  | .hbm, ⟨12, _⟩ => ⟨S600000x1, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.RowMlp.lean ====
/-
  The function both programs compute on a row of node features.

  A row x of 128 features and the row a of its aggregated neighbour messages go through
      s   = 1 · x + a                              (the residual, the weight 1 + eps with eps = 0 kept as the word 1.0)
      h_k = max (∑ l, s_l · w1[l, k] + b1[k], 0)   (first linear layer, then the rectifier)
      o_q = ∑ k, h_k · w2[k, q] + b2[q]            (second linear layer)
  over the extended reals. Nothing in it mixes rows: row r of the result array depends on row r of x and of a
  only, which is why a grid over row tiles computes the same array as one whole-array product.

  Also here: how one layer reads at an entry, for the kernel (a product into a zero accumulator of operands
  narrowed to bf16, which at the ideal values is no change, plus a bias row cast to [1, 128] and repeated down the
  rows) and for the bias row alone.
-/
import Idealize.ShloMosaic.Lib.ValueIdx
import Idealize.ShloMosaic.Lib.ValueLayout
import Idealize.ShloMosaic.PureOps.Ideal
import proofs.«170802_j39247411151300_1_alg».proof.Proof.LibPlainDot

noncomputable section

namespace Cert.RowMlp

open Idealize.ShloMosaic Idealize.ShloMosaic.ValueIdx

/-- The words 1.0 and 0.0 of f32 at their ideal values; both programs spell the same words, so neither is evaluated. -/
abbrev one : EReal := Ideal.ofBits .f32 0x3F800000#32
abbrev zero : EReal := Ideal.ofBits .f32 0x00000000#32

/-- Hidden unit k of a row: the rectified first layer of the residual sum. -/
def hidden (xr ar : Fin 128 → EReal) (w1 : (⟨2, ![128, 128]⟩ : Shape).Idx → EReal) (b1 : (⟨1, ![128]⟩ : Shape).Idx → EReal)
    (k : Fin 128) : EReal :=
  max ((∑ l : Fin 128, (one * xr l + ar l) * w1 (ix2 l k)) + b1 (ix1 k)) zero

/-- Output feature q of a row: the second layer over the hidden units. -/
def outRow (xr ar : Fin 128 → EReal) (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) (q : Fin 128) : EReal :=
  (∑ k : Fin 128, hidden xr ar w1 b1 k * w2 (ix2 k q)) + b2 (ix1 q)

/-- The whole array, row by row: entry (r, q) is output feature q of row r of x and a. -/
def mlp {n : ℕ} (x a : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal) (b2 : (⟨1, ![128]⟩ : Shape).Idx → EReal) :
    (⟨2, ![n, 128]⟩ : Shape).Idx → EReal :=
  fun i => outRow (fun l => x (ix2 (i 0) l)) (fun l => a (ix2 (i 0) l)) w1 b1 w2 b2 (i 1)

theorem mlp_apply {n : ℕ} (x a : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal) (b2 : (⟨1, ![128]⟩ : Shape).Idx → EReal)
    (r : Fin n) (q : Fin 128) :
    mlp x a w1 b1 w2 b2 (ix2 r q) = outRow (fun l => x (ix2 r l)) (fun l => a (ix2 r l)) w1 b1 w2 b2 q := rfl

/-- A bias vector cast to one row and repeated down n rows reads, at (p, q), its entry q. -/
theorem bias_rows_apply {n : ℕ} (b : (⟨1, ![128]⟩ : Shape).Idx → EReal)
    (h1 : (⟨1, ![128]⟩ : Shape).ShapeCasts ⟨2, ![1, 128]⟩) (h2 : (⟨2, ![1, 128]⟩ : Shape).Broadcasts ⟨2, ![n, 128]⟩)
    (p : Fin n) (q : Fin 128) :
    broadcastTo ⟨2, ![n, 128]⟩ (shapeCast ⟨2, ![1, 128]⟩ b h1) h2 (ix2 p q) = b (ix1 q) :=
  (broadcastTo_1b_ab_apply _ h2 p q).trans (shapeCast_a_1a_apply b h1 0 q)

/-- One layer as the kernel computes it on a tile of n rows, at entry (p, q): the product of the tile with the weight
    matrix into a zero accumulator — both operands narrowed to bf16 first, the identity at the ideal values — plus
    the bias row; a plain sum over the 128 contraction positions plus the bias entry. -/
theorem tile_layer_apply {n : ℕ} {d : DotDims ⟨2, ![n, 128]⟩ ⟨2, ![128, 128]⟩ ⟨2, ![n, 128]⟩} (hd : Cert.PlainDot.Plain d)
    (hr : d.contr.rank = 1) (hs : d.contr.size ⟨0, by omega⟩ = 128)
    (h : FVec Ideal ⟨2, ![n, 128]⟩ .f32) (w : FVec Ideal ⟨2, ![128, 128]⟩ .f32) (b : FVec Ideal ⟨1, ![128]⟩ .f32)
    (hlt : FTy.bits .bf16 < FTy.bits .f32)
    (h1 : (⟨1, ![128]⟩ : Shape).ShapeCasts ⟨2, ![1, 128]⟩) (h2 : (⟨2, ![1, 128]⟩ : Shape).Broadcasts ⟨2, ![n, 128]⟩)
    (p : Fin n) (q : Fin 128) :
    addf (matmul d none (truncf .bf16 h hlt) (truncf .bf16 w hlt) (constant ⟨2, ![n, 128]⟩ .f32 0x00000000#32))
        (broadcastTo ⟨2, ![n, 128]⟩ (shapeCast ⟨2, ![1, 128]⟩ b h1) h2) (ix2 p q)
      = (∑ k : Fin 128, h (ix2 p k) * w (ix2 k q)) + b (ix1 q) := by
  rw [addf_apply, Cert.PlainDot.matmul_zero_apply hd hr hs, bias_rows_apply]
  rfl

end Cert.RowMlp

end
-- ==== Proof.RefIsMlp.lean ====
/-
  The reference's result array is the row function of its arguments.

  Read one operation at a time, entry (r, q) of the reference's last stage is the second host product at (r, q) — a sum
  over k of the rectified first layer at (r, k) times w2[k, q] — plus b2[q] repeated down the rows; and the first
  layer at (r, k) is the host product of the residual sum 1 · x + a with w1, plus b1[k], against a zero repeated
  everywhere. The aggregated messages a (the gather and scatter-add stage) enter only through their entries
  (r, l), so that stage is left unopened.
-/
import proofs.«170802_j39247411151300_1_alg».proof.Proof.Gen.ReferenceIdeal.Read
import proofs.«170802_j39247411151300_1_alg».proof.Proof.RowMlp

noncomputable section

namespace Cert.ReferenceIdeal.RefValue

open Cert.ReferenceIdeal Cert.ReferenceIdeal.Read Idealize.ShloMosaic Idealize.ShloMosaic.ValueIdx

/-- Second product, left operand: row r, contraction position k. -/
theorem lidx27 (r : Fin 50000) (q k : Fin 128) : lidx_main_v27 (ix2 r q) k = ix2 r k :=
  funext fun a => Fin.ext (by match a with | ⟨0, _⟩ => rfl | ⟨1, _⟩ => rfl)
/-- Second product, right operand: contraction position k, column q. -/
theorem ridx27 (r : Fin 50000) (q k : Fin 128) : ridx_main_v27 (ix2 r q) k = ix2 k q :=
  funext fun a => Fin.ext (by match a with | ⟨0, _⟩ => rfl | ⟨1, _⟩ => rfl)
/-- First product, left operand. -/
theorem lidx22 (r : Fin 50000) (k l : Fin 128) : lidx_main_v22 (ix2 r k) l = ix2 r l :=
  funext fun a => Fin.ext (by match a with | ⟨0, _⟩ => rfl | ⟨1, _⟩ => rfl)
/-- First product, right operand. -/
theorem ridx22 (r : Fin 50000) (k l : Fin 128) : ridx_main_v22 (ix2 r k) l = ix2 l k :=
  funext fun a => Fin.ext (by match a with | ⟨0, _⟩ => rfl | ⟨1, _⟩ => rfl)
/-- The second bias, repeated down the rows, is read at its column. -/
theorem bidx29 (r : Fin 50000) (q : Fin 128) : idx_main_v28 (idx_main_v29 (ix2 r q)) = ix1 q :=
  funext fun a => Fin.ext (by match a with | ⟨0, _⟩ => rfl)
/-- The first bias likewise. -/
theorem bidx24 (r : Fin 50000) (k : Fin 128) : idx_main_v23 (idx_main_v24 (ix2 r k)) = ix1 k :=
  funext fun a => Fin.ext (by match a with | ⟨0, _⟩ => rfl)

/-- The rectified first layer of the reference at (r, k) is hidden unit k of row r. -/
theorem hidden_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (r : Fin 50000) (k : Fin 128) :
    val_main_v26 (F := Ideal) x0 x1 x2 x3 (ix2 r k)
      = Cert.RowMlp.hidden (fun l => x0 (ix2 r l)) (fun l => val_main_v18 (F := Ideal) x0 x1 (ix2 r l)) x2 x3 k := by
  rw [val_main_v26_apply, val_main_v25_apply, val_main_v22_apply, val_main_v24_apply, val_main_v23_apply,
    val_main_call0_v0_apply, val_main_call0_cst_apply, bidx24]
  simp only [lidx22, ridx22, val_main_v21_apply, val_main_v20_apply, val_main_v19_apply, val_main_cst_1_apply]
  rfl

/-- The reference's last stage is the row function of x, the aggregated messages, and the two layers' parameters. -/
theorem result_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v30 (F := Ideal) x0 x1 x2 x3 x4 x5 = Cert.RowMlp.mlp x0 (val_main_v18 (F := Ideal) x0 x1) x2 x3 x4 x5 := by
  funext i
  obtain ⟨r, q, rfl⟩ : ∃ (r : Fin 50000) (q : Fin 128), i = ix2 r q := ⟨i 0, i 1, eq_ix2 i⟩
  rw [Cert.RowMlp.mlp_apply, val_main_v30_apply, val_main_v27_apply, val_main_v29_apply, val_main_v28_apply, bidx29]
  simp only [lidx27, ridx27, hidden_eq]
  rfl

end Cert.ReferenceIdeal.RefValue

end
-- ==== Proof.BlockIsMlp.lean ====
/-
  What the kernel body stores, at an entry of a row tile.

  The body loads a tile of 5000 rows of x and of the aggregated messages a, and the whole of w1, b1, w2, b2; it stores
  one value for the tile: ((relu ((1 · x + a) · w1 + b1)) · w2 + b2), the two products taken into zero accumulators
  after narrowing their operands to bf16. At the ideal values the narrowing changes nothing and each product is the
  exact sum over its 128 contraction positions, so entry (p, q) of the stored tile is output feature q of row p of
  the loaded tiles.
-/
import proofs.«170802_j39247411151300_1_alg».proof.Proof.Gen.KernelIdeal.Skeleton
import proofs.«170802_j39247411151300_1_alg».proof.Proof.RowMlp

noncomputable section

namespace Cert.KernelIdeal.TileValue

open Cert.KernelIdeal Cert.KernelIdeal.Gen Idealize.ShloMosaic Idealize.ShloMosaic.ValueIdx

/-- The body's two products are plain matrix products [5000, 128] · [128, 128]. -/
theorem plain : Cert.PlainDot.Plain dot_S5000x128_S128x128_S5000x128_1_0_0_1_n_n := ⟨rfl, rfl, rfl, rfl, rfl, rfl⟩

/-- The stored tile at (p, q) is output feature q of row p of the loaded tiles. -/
theorem stored_apply (x0 x1 : Vec Ideal S5000x128 .f32) (x2 : Vec Ideal S128x128 .f32) (x3 : Vec Ideal S128 .f32)
    (x4 : Vec Ideal S128x128 .f32) (x5 : Vec Ideal S128 .f32) (p : Fin 5000) (q : Fin 128) :
    k0_pay1 (F := Ideal) x0 x1 x2 x3 x4 x5 (ix2 p q)
      = Cert.RowMlp.outRow (fun l => x0 (ix2 p l)) (fun l => x1 (ix2 p l)) x2 x3 x4 x5 q := by
  unfold k0_pay1
  rw [shapeCast_self x1]
  rw [Cert.RowMlp.tile_layer_apply plain rfl rfl]
  unfold Cert.RowMlp.outRow
  refine congrArg (· + x5 (ix1 q)) (Finset.sum_congr rfl fun k _ => congrArg (· * x4 (ix2 k q)) ?_)
  rw [maximumf_apply, Cert.RowMlp.tile_layer_apply plain rfl rfl]
  rfl

end Cert.KernelIdeal.TileValue

end
-- ==== Proof.KernelArray.lean ====
/-
  The kernel's result array after the run, as the row function of the arrays the region is entered with.

  The grid has ten points; point t stages rows 5000·t … 5000·t + 4999 of x and of the aggregated messages (all 128
  columns) and the whole of the four parameter arrays, and writes its stored tile back to the same rows of the result.
  So entry (p, q) of the tile point t writes back is output feature q of row 5000·t + p of x and of the messages:
  block t of the row function. The ten blocks cover every row (row r lies in the block of point r / 5000), hence
  the result array is the row function everywhere.
-/
import proofs.«170802_j39247411151300_1_alg».proof.Proof.Gen.KernelIdeal.Value
import proofs.«170802_j39247411151300_1_alg».proof.Proof.BlockIsMlp

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- The row function of the arrays as the region finds them: x, the aggregated messages, w1, b1, w2, b2. -/
abbrev rowFn (c : Dev nD) : S50000x128.Idx → EReal :=
  Cert.RowMlp.mlp (n := 50000) (V m c main_arg0) (V m c main_v18) (V m c main_arg2) (V m c main_arg3) (V m c main_arg4) (V m c main_arg5)

/-- The block index maps over the grid: the two row-tiled inputs move with the output along the rows and sit at
    column block 0; the four parameter arrays stay at block 0; the output's row block is at most 9. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) ≤ 9 ∧ win0_6.index t (1 : Fin 2) = 0 :=
  (by decide +kernel : ∀ t : Fin grid0.N, _)

/-- Every row block of the result is some point's. -/
theorem idx_onto : ∀ b : Fin 10, ∃ t : Fin cfg0.N, win0_6.index t = ![b.val, 0] :=
  (by decide +kernel : ∀ b : Fin 10, ∃ t : Fin grid0.N, win0_6.index t = ![b.val, 0])

/-- The array row that row p of point t's tiles is. -/
def rowOf (t : Fin cfg0.N) (p : Fin 5000) : Fin 50000 :=
  ⟨win0_6.index t (0 : Fin 2) * 5000 + p.val, by have := (idx_facts t).2.2.2.2.2.2.2.2.2.2.1; have := p.isLt; omega⟩

/-- Row p of the staged tile of x at point t is row `rowOf t p` of x. -/
theorem tile_x (c : Dev nD) (t : Fin cfg0.N) (p : Fin 5000) (l : Fin 128) :
    iblk m c 0 t (ix2 p l) = V m c main_arg0 (ix2 (rowOf t p) l) := by
  obtain ⟨e0, e1, -⟩ := idx_facts t
  show V m c main_arg0 (((cfg0.win 0).blk t).view.emb (ix2 p l)) = V m c main_arg0 (ix2 (rowOf t p) l)
  refine congrArg _ (funext fun a => Fin.ext ?_)
  match a with
  | ⟨0, _⟩ => show win0_0.index t (0 : Fin 2) * 5000 + 1 * p.val = win0_6.index t (0 : Fin 2) * 5000 + p.val; omega
  | ⟨1, _⟩ => show win0_0.index t (1 : Fin 2) * 128 + 1 * l.val = l.val; omega

/-- Row p of the staged tile of the aggregated messages at point t is row `rowOf t p` of that array. -/
theorem tile_a (c : Dev nD) (t : Fin cfg0.N) (p : Fin 5000) (l : Fin 128) :
    iblk m c 1 t (ix2 p l) = V m c main_v18 (ix2 (rowOf t p) l) := by
  obtain ⟨-, -, e0, e1, -⟩ := idx_facts t
  show V m c main_v18 (((cfg0.win 1).blk t).view.emb (ix2 p l)) = V m c main_v18 (ix2 (rowOf t p) l)
  refine congrArg _ (funext fun a => Fin.ext ?_)
  match a with
  | ⟨0, _⟩ => show win0_1.index t (0 : Fin 2) * 5000 + 1 * p.val = win0_6.index t (0 : Fin 2) * 5000 + p.val; omega
  | ⟨1, _⟩ => show win0_1.index t (1 : Fin 2) * 128 + 1 * l.val = l.val; omega

/-- Each parameter array is staged whole at every point. -/
theorem tile_w1 (c : Dev nD) (t : Fin cfg0.N) : (iblk m c 2 t : S128x128.Idx → EReal) = V m c main_arg2 := by
  obtain ⟨-, -, -, -, e0, e1, -⟩ := idx_facts t
  refine funext fun (y : S128x128.Idx) => ?_
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem tile_b1 (c : Dev nD) (t : Fin cfg0.N) : (iblk m c 3 t : S128.Idx → EReal) = V m c main_arg3 := by
  obtain ⟨-, -, -, -, -, -, e0, -⟩ := idx_facts t
  refine funext fun (y : S128.Idx) => ?_
  show V m c main_arg3 (((cfg0.win 3).blk t).view.emb y) = V m c main_arg3 y
  refine congrArg _ (funext fun a => Fin.ext ?_)
  match a with
  | ⟨0, _⟩ => show win0_3.index t (0 : Fin 1) * 128 + 1 * (y 0).val = (y 0).val; omega

theorem tile_w2 (c : Dev nD) (t : Fin cfg0.N) : (iblk m c 4 t : S128x128.Idx → EReal) = V m c main_arg4 := by
  obtain ⟨-, -, -, -, -, -, -, e0, e1, -⟩ := idx_facts t
  refine funext fun (y : S128x128.Idx) => ?_
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem tile_b2 (c : Dev nD) (t : Fin cfg0.N) : (iblk m c 5 t : S128.Idx → EReal) = V m c main_arg5 := by
  obtain ⟨-, -, -, -, -, -, -, -, -, e0, -⟩ := idx_facts t
  refine funext fun (y : S128.Idx) => ?_
  show V m c main_arg5 (((cfg0.win 5).blk t).view.emb y) = V m c main_arg5 y
  refine congrArg _ (funext fun a => Fin.ext ?_)
  match a with
  | ⟨0, _⟩ => show win0_5.index t (0 : Fin 1) * 128 + 1 * (y 0).val = (y 0).val; omega

/-- Entry (p, q) of the result's block at point t is entry (`rowOf t p`, q) of the array. -/
theorem out_emb (t : Fin cfg0.N) (p : Fin 5000) (q : Fin 128) :
    (((cfg0.win 6).blk t).view.emb (ix2 p q) : S50000x128.Idx) = ix2 (rowOf t p) q := by
  obtain ⟨-, -, -, -, -, -, -, -, -, -, -, e1⟩ := idx_facts t
  refine funext fun a => Fin.ext ?_
  match a with
  | ⟨0, _⟩ => show win0_6.index t (0 : Fin 2) * 5000 + 1 * p.val = win0_6.index t (0 : Fin 2) * 5000 + p.val; omega
  | ⟨1, _⟩ => show win0_6.index t (1 : Fin 2) * 128 + 1 * q.val = q.val; omega

/-- What point t writes back is block t of the row function. -/
theorem flushed_eq (c : Dev nD) (t : Fin cfg0.N) :
    (dats m 0 c).flushed 6 t = ((cfg0.win 6).blk t).view.read (Elt Ideal) (rowFn m c) := by
  rw [Cert.KernelIdeal.Value.flushed6]
  unfold out0_6
  rw [View.canon_unit_zero off2]
  simp only [View.ld_unit_zero (S := S5000x128) off2, View.ld_unit_zero (S := S128x128) off2, View.ld_unit_zero (S := S128) off1]
  refine funext fun (j : S5000x128.Idx) => ?_
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = rowFn m c (((cfg0.win 6).blk t).view.emb (ix2 p q))
  rw [out_emb t p q]
  refine (Cert.KernelIdeal.TileValue.stored_apply (iblk m c 0 t) (iblk m c 1 t) (iblk m c 2 t) (iblk m c 3 t) (iblk m c 4 t) (iblk m c 5 t) p q).trans ?_
  rw [tile_w1 m c t, tile_b1 m c t, tile_w2 m c t, tile_b2 m c t]
  simp only [tile_x m c t p, tile_a m c t p]
  rfl

/-- An index of the array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- Every entry of the result is in some point's block: row r in that of the point whose row block is r / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The result array after the run is the row function of the arrays the region was entered with. -/
theorem final (c : Dev nD) : (dats m 0 c).arrAt 6 cfg0.N = rowFn m c :=
  (dats m 0 c).arrAt_eq_of_cover 6 (rowFn m c) (fun t _ => flushed_eq m c t) cover

/-- The kernel's run: the result at the row function, the arguments unchanged. -/
theorem run : θ_run defs (onTc (τ := τ) (main (F := Ideal))) ⟨m, fun _ => 0, ρ⟩ fun r => ∀ c : Dev nD,
      r.2.mem ((c : Thread nD τ).loc main_v19) = rowFn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ArrayValue

end
-- ==== Proof.HostGlue.lean ====
/-
  The aggregated messages are one array in both programs.

  Before its one region the kernel's program computes, on the host, exactly the operations the reference computes for
  the same value: the two rows of the edge list, the mask of the edges that are not self-loops, the gather of the
  source rows of x (negative indices wrapped by 50000 first), their product with the mask, and the scatter-add of
  the products into a zero array by destination row. The two printed sequences agree operation by operation, so the
  array the region is entered with is the reference's scatter-add stage of the same x and edge list; it is never
  opened.  With the five float arguments found as launched, the kernel's row function is the reference's.
-/
import proofs.«170802_j39247411151300_1_alg».proof.Proof.Gen.ReferenceIdeal.Read
import proofs.«170802_j39247411151300_1_alg».proof.Proof.KernelArray
import Idealize.ShloMosaic.Lib.StableHlo.Run

noncomputable section

namespace Cert.KernelIdeal.HostGlue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The array of aggregated messages the region finds is the reference's scatter-add stage of x and the edge list. -/
theorem messages_eq (c : Dev nD) :
    (V m c main_v18 : S50000x128.Idx → EReal)
      = Cert.ReferenceIdeal.Read.val_main_v18 (F := Ideal) (m ((c : Thread nD τ).loc main_arg0)) (m ((c : Thread nD τ).loc main_arg1)) := by
  dsimp only [V, hostOps0]
  after_results_simp
  rfl

/-- The kernel's row function, over the launch contents of the arguments. -/
theorem rowFn_eq (c : Dev nD) :
    Cert.KernelIdeal.ArrayValue.rowFn m c
      = Cert.RowMlp.mlp (n := 50000) (m ((c : Thread nD τ).loc main_arg0))
          (Cert.ReferenceIdeal.Read.val_main_v18 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  unfold Cert.KernelIdeal.ArrayValue.rowFn
  rw [messages_eq m c, V_main_arg0, V_main_arg2, V_main_arg3, V_main_arg4, V_main_arg5]

end Cert.KernelIdeal.HostGlue

end
-- ==== Proof.lean ====
/-
  A graph-isomorphism-network layer on 50000 nodes of 128 features: each node's row of x plus the sum of its
  in-neighbours' rows (self-loops dropped), then a two-layer perceptron, relu ((x + agg) · w1 + b1) · w2 + b2.

  Both programs form the neighbour sums by the same host gather and scatter-add. The kernel then runs the perceptron
  over ten tiles of 5000 rows, its two products into zero accumulators on operands narrowed to bf16; the reference
  runs it as two whole-array host products. Over the extended reals the narrowing is the identity and each product is
  the exact sum over its 128 contraction positions, and the perceptron acts on each row by itself, so the tiled and
  the whole computation give the same array: entry (r, q) is the row function (Proof/RowMlp.lean) of row r.  No
  algebraic law beyond this reading is used, and the finiteness of the inputs is not needed.

  The frames of the two kernel programs are the generated ones; the reference's frame is its generated run; no
  operation was rewritten by the ideal pass, so there is nothing to preserve.
-/
import proofs.«170802_j39247411151300_1_alg».proof.Defs
import proofs.«170802_j39247411151300_1_alg».proof.Proof.Gen.Kernel
import proofs.«170802_j39247411151300_1_alg».proof.Proof.Gen.Kernel.Frame
import proofs.«170802_j39247411151300_1_alg».proof.Proof.Gen.KernelIdeal
import proofs.«170802_j39247411151300_1_alg».proof.Proof.Gen.KernelIdeal.Frame
import proofs.«170802_j39247411151300_1_alg».proof.Proof.Gen.KernelIdeal.Value
import proofs.«170802_j39247411151300_1_alg».proof.Proof.Gen.ReferenceIdeal
import proofs.«170802_j39247411151300_1_alg».proof.Proof.Gen.ReferenceIdeal.Run
import proofs.«170802_j39247411151300_1_alg».proof.Proof.Gen.ReferenceIdeal.Read
import proofs.«170802_j39247411151300_1_alg».proof.Proof.Gen.Pre_finite_inputs
import proofs.«170802_j39247411151300_1_alg».proof.Proof.RefIsMlp
import proofs.«170802_j39247411151300_1_alg».proof.Proof.KernelArray
import proofs.«170802_j39247411151300_1_alg».proof.Proof.HostGlue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the row function of the (agreeing) arguments. -/
theorem algebraic : Cert.algebraic_KernelIdeal_ReferenceIdeal := by
  intro m ρ m' ρ' _ hagree
  refine ⟨fun c => Cert.KernelIdeal.ArrayValue.rowFn m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2.1, (hagree c).2.2.2.2.2]
  exact (Cert.KernelIdeal.HostGlue.rowFn_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
